-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4x512 : Shape := ⟨2, ![4, 512]⟩
abbrev S1024x1024 : Shape := ⟨2, ![1024, 1024]⟩
abbrev S1024 : Shape := ⟨1, ![1024]⟩
abbrev S512x4096 : Shape := ⟨2, ![512, 4096]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S512x4096 : S_.BroadcastsInDim S512x4096 (![] : Fin 0 → Fin S512x4096.rank)
  reducesTo_S512x4096_S_d0_1 : S512x4096.ReducesTo [0, 1] S_

variable [Facts]

def fn_part1 {F : FTy → Type} [FloatOps F] (main_arg4 : FVec F S512x4096 .f32) (main_arg5 : FVec F S512x4096 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S512x4096 .f32 := Host.absf main_arg4
  let main_cst_6 : FVec F S_ .f32 := constant S_ .f32 0x7F800000#32
  let main_v20 : FVec F S512x4096 .f32 := broadcastInDim S512x4096 ![] bcast_S_S512x4096 main_cst_6
  let main_v21 : IVec S512x4096 1 := cmpf .olt main_v19 main_v20
  let main_c_7 : IVec S_ 1 := constantI S_ 1 1#1
  let main_v22 : IVec S_ 1 := (fun x v => Host.reduce IntOp.andi x v reducesTo_S512x4096_S_d0_1 h_S_) main_v21 main_c_7
  let main_v23 : IVec S_ 1 := andi main_v18 main_v22
  let main_v24 : FVec F S512x4096 .f32 := Host.absf main_arg5
  let main_cst_8 : FVec F S_ .f32 := constant S_ .f32 0x7F800000#32
  let main_v25 : FVec F S512x4096 .f32 := broadcastInDim S512x4096 ![] bcast_S_S512x4096 main_cst_8
  let main_v26 : IVec S512x4096 1 := cmpf .olt main_v24 main_v25
  let main_c_9 : IVec S_ 1 := constantI S_ 1 1#1
  let main_v27 : IVec S_ 1 := (fun x v => Host.reduce IntOp.andi x v reducesTo_S512x4096_S_d0_1 h_S_) main_v26 main_c_9
  let main_v28 : IVec S_ 1 := andi main_v23 main_v27
  main_v28

def fn {F : FTy → Type} [FloatOps F] (main_arg0 : FVec F S4x4096x1024 .f32) (main_arg1 : FVec F S4x512 .f32) (main_arg2 : FVec F S1024x1024 .f32) (main_arg3 : FVec F S1024 .f32) (main_arg4 : FVec F S512x4096 .f32) (main_arg5 : FVec F S512x4096 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S4x4096x1024 : Shape := ⟨3, ![4, 4096, 1024]⟩
abbrev S4x512 : Shape := ⟨2, ![4, 512]⟩
abbrev S1024x1024 : Shape := ⟨2, ![1024, 1024]⟩
abbrev S1024 : Shape := ⟨1, ![1024]⟩
abbrev S512x4096 : Shape := ⟨2, ![512, 4096]⟩
abbrev S4x4096 : Shape := ⟨2, ![4, 4096]⟩
abbrev S4x4x1024 : Shape := ⟨3, ![4, 4, 1024]⟩
abbrev S_ : Shape := ⟨0, ![]⟩
abbrev S1x1024x1024 : Shape := ⟨3, ![1, 1024, 1024]⟩
abbrev S1x4x1024 : Shape := ⟨3, ![1, 4, 1024]⟩
abbrev S1x1024 : Shape := ⟨2, ![1, 1024]⟩
abbrev S4x1024 : Shape := ⟨2, ![4, 1024]⟩
abbrev S1024x4 : Shape := ⟨2, ![1024, 4]⟩

abbrev nBuf : Space → Nat
  | .hbm => 17
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x512, .f32⟩
  | .hbm, ⟨2, _⟩ => ⟨S1024x1024, .f32⟩
  | .hbm, ⟨3, _⟩ => ⟨S1024, .f32⟩
  | .hbm, ⟨4, _⟩ => ⟨S512x4096, .f32⟩
  | .hbm, ⟨5, _⟩ => ⟨S512x4096, .f32⟩
  | .hbm, ⟨6, _⟩ => ⟨S4x4096, .f32⟩
  | .hbm, ⟨7, _⟩ => ⟨S4x4x1024, .f32⟩
  | .hbm, ⟨8, _⟩ => ⟨S4x4096, .f32⟩
  | .hbm, ⟨9, _⟩ => ⟨S4x4x1024, .f32⟩
  | .hbm, ⟨10, _⟩ => ⟨S_, .f32⟩
  | .hbm, ⟨11, _⟩ => ⟨S4x4x1024, .f32⟩
  | .hbm, ⟨12, _⟩ => ⟨S4x4x1024, .f32⟩
  | .hbm, ⟨13, _⟩ => ⟨S_, .f32⟩
  | .hbm, ⟨14, _⟩ => ⟨S4x4x1024, .f32⟩
  | .hbm, ⟨15, _⟩ => ⟨S4x4x1024, .f32⟩
  | .hbm, ⟨16, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1024, .f32⟩
  | .local _ .vmem, ⟨4, _⟩ => ⟨S1x4x1024, .f32⟩
  | .local _ .vmem, ⟨5, _⟩ => ⟨S1x4x1024, .f32⟩
  | .local _ .vmem, ⟨6, _⟩ => ⟨S1x4x1024, .f32⟩
  | .local _ .vmem, ⟨7, _⟩ => ⟨S1x4x1024, .f32⟩
  | .local _ .vmem, ⟨8, _⟩ => ⟨S1x1024x1024, .f32⟩
  | .local _ .vmem, ⟨9, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x4096_S4x4x1024 : S4x4096.ShapeCasts S4x4x1024
  bcast_S_S4x4x1024 : S_.BroadcastsInDim S4x4x1024 (![] : Fin 0 → Fin S4x4x1024.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  transposes_S4x1024_p1_0_S1024x4 : S4x1024.Transposes [1, 0] S1024x4
  shapeCasts_S1024x1024_S1x1024x1024 : S1024x1024.ShapeCasts S1x1024x1024
  dot_S4x512_S512x4096_S4x4096_1_0_0_1_n_n_wf : DotDims.WF S4x512 S512x4096 S4x4096 [1] [0] [0] [1] [] []
  dot_S1024x1024_S1024x1024_S1024x1024_1_0_0_1_n_n_wf : DotDims.WF S1024x1024 S1024x1024 S1024x1024 [1] [0] [0] [1] [] []
  dot_S1024x1024_S1024x4_S1024x4_1_0_0_1_n_n_wf : DotDims.WF S1024x1024 S1024x4 S1024x4 [1] [0] [0] [1] [] []
  dot_S1024x4_S4x1024_S1024x1024_1_0_0_1_n_n_wf : DotDims.WF S1024x4 S4x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x1024.size a ≤ S4x4x1024.size a
  hwx0_3 : ∀ i : grid0.Coords, EltTy.bits .f32 = 32 ∨ (Rect.block (s := S4x4x1024) S1x4x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x1024.size a ≤ S4x4x1024.size a
  hwx0_4 : ∀ i : grid0.Coords, EltTy.bits .f32 = 32 ∨ (Rect.block (s := S4x4x1024) S1x4x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S4x4096x1024.size a
  hwx0_5 : ∀ i : grid0.Coords, EltTy.bits .f32 = 32 ∨ (Rect.block (s := S4x4096x1024) S1x1024x1024.size (cc0_transform_5 i) (hinb0_5 i)).WholeWords (EltTy.packing .f32)

variable [Facts₀]

def dot_S4x512_S512x4096_S4x4096_1_0_0_1_n_n : DotDims S4x512 S512x4096 S4x4096 where
  lhsContracting := [1]
  rhsContracting := [0]
  lhsNonContracting := [0]
  rhsNonContracting := [1]
  lhsBatch := []
  rhsBatch := []
  wf := dot_S4x512_S512x4096_S4x4096_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x4_S1024x4_1_0_0_1_n_n : DotDims S1024x1024 S1024x4 S1024x4 where
  lhsContracting := [1]
  rhsContracting := [0]
  lhsNonContracting := [0]
  rhsNonContracting := [1]
  lhsBatch := []
  rhsBatch := []
  wf := dot_S1024x1024_S1024x4_S1024x4_1_0_0_1_n_n_wf
def dot_S1024x4_S4x1024_S1024x1024_1_0_0_1_n_n : DotDims S1024x4 S4x1024 S1024x1024 where
  lhsContracting := [1]
  rhsContracting := [0]
  lhsNonContracting := [0]
  rhsNonContracting := [1]
  lhsBatch := []
  rhsBatch := []
  wf := dot_S1024x4_S4x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x4x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4x512 : Shape := ⟨2, ![4, 512]⟩
abbrev S1024x1024 : Shape := ⟨2, ![1024, 1024]⟩
abbrev S1024 : Shape := ⟨1, ![1024]⟩
abbrev S512x4096 : Shape := ⟨2, ![512, 4096]⟩
abbrev S1x1x1024 : Shape := ⟨3, ![1, 1, 1024]⟩
abbrev S4x4096 : Shape := ⟨2, ![4, 4096]⟩
abbrev S4x4x1024 : Shape := ⟨3, ![4, 4, 1024]⟩
abbrev S_ : Shape := ⟨0, ![]⟩
abbrev S4x4096x4 : Shape := ⟨3, ![4, 4096, 4]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x512, .f32⟩
  | .hbm, ⟨2, _⟩ => ⟨S1024x1024, .f32⟩
  | .hbm, ⟨3, _⟩ => ⟨S1024, .f32⟩
  | .hbm, ⟨4, _⟩ => ⟨S512x4096, .f32⟩
  | .hbm, ⟨5, _⟩ => ⟨S512x4096, .f32⟩
  | .hbm, ⟨6, _⟩ => ⟨S4x4096x1024, .f32⟩
  | .hbm, ⟨7, _⟩ => ⟨S1x1x1024, .f32⟩
  | .hbm, ⟨8, _⟩ => ⟨S4x4096x1024, .f32⟩
  | .hbm, ⟨9, _⟩ => ⟨S4x4096x1024, .f32⟩
  | .hbm, ⟨10, _⟩ => ⟨S4x4096, .f32⟩
  | .hbm, ⟨11, _⟩ => ⟨S4x4x1024, .f32⟩
  | .hbm, ⟨12, _⟩ => ⟨S4x4096, .f32⟩
  | .hbm, ⟨13, _⟩ => ⟨S4x4x1024, .f32⟩
  | .hbm, ⟨14, _⟩ => ⟨S_, .f32⟩
  | .hbm, ⟨15, _⟩ => ⟨S4x4x1024, .f32⟩
  | .hbm, ⟨16, _⟩ => ⟨S4x4x1024, .f32⟩
  | .hbm, ⟨17, _⟩ => ⟨S_, .f32⟩
  | .hbm, ⟨18, _⟩ => ⟨S4x4x1024, .f32⟩
  | .hbm, ⟨19, _⟩ => ⟨S4x4x1024, .f32⟩
  | .hbm, ⟨20, _⟩ => ⟨S4x4096x4, .f32⟩
  | .hbm, ⟨21, _⟩ => ⟨S4x4096x1024, .f32⟩
  | .hbm, ⟨22, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  shapeCasts_S4x4096_S4x4x1024 : S4x4096.ShapeCasts S4x4x1024
  bcast_S_S4x4x1024 : S_.BroadcastsInDim S4x4x1024 (![] : Fin 0 → Fin S4x4x1024.rank)
  dot_S4x4096x1024_S1024x1024_S4x4096x1024_2_0_01_1_n_n_wf : DotDims.WF S4x4096x1024 S1024x1024 S4x4096x1024 [2] [0] [0, 1] [1] [] []
  dot_S4x512_S512x4096_S4x4096_1_0_0_1_n_n_wf : DotDims.WF S4x512 S512x4096 S4x4096 [1] [0] [0] [1] [] []
  dot_S4x4096x1024_S4x4x1024_S4x4096x4_2_2_1_1_0_0_wf : DotDims.WF S4x4096x1024 S4x4x1024 S4x4096x4 [2] [2] [1] [1] [0] [0]
  dot_S4x4096x4_S4x4x1024_S4x4096x1024_2_1_1_2_0_0_wf : DotDims.WF S4x4096x4 S4x4x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x512_S512x4096_S4x4096_1_0_0_1_n_n : DotDims S4x512 S512x4096 S4x4096 where
  lhsContracting := [1]
  rhsContracting := [0]
  lhsNonContracting := [0]
  rhsNonContracting := [1]
  lhsBatch := []
  rhsBatch := []
  wf := dot_S4x512_S512x4096_S4x4096_1_0_0_1_n_n_wf
def dot_S4x4096x1024_S4x4x1024_S4x4096x4_2_2_1_1_0_0 : DotDims S4x4096x1024 S4x4x1024 S4x4096x4 where
  lhsContracting := [2]
  rhsContracting := [2]
  lhsNonContracting := [1]
  rhsNonContracting := [1]
  lhsBatch := [0]
  rhsBatch := [0]
  wf := dot_S4x4096x1024_S4x4x1024_S4x4096x4_2_2_1_1_0_0_wf
def dot_S4x4096x4_S4x4x1024_S4x4096x1024_2_1_1_2_0_0 : DotDims S4x4096x4 S4x4x1024 S4x4096x1024 where
  lhsContracting := [2]
  rhsContracting := [1]
  lhsNonContracting := [1]
  rhsNonContracting := [2]
  lhsBatch := [0]
  rhsBatch := [0]
  wf := dot_S4x4096x4_S4x4x1024_S4x4096x1024_2_1_1_2_0_0_wf

class Facts : Prop extends Facts₀ where

variable [Facts]
-- ==== Proof.LoraLayer.lean ====
/-
  A dense layer with a low-rank correction chosen per sample, entry by entry.

  For a batch of 4 samples, each a 4096 × 1024 matrix x_b, a weight matrix W (1024 × 1024), a bias vector and, per sample,
  two rank-4 factors A_b and B_b (4 × 1024 each), the layer's output is

      out(b, s, f) = ( Σ_d x(b, s, d) · W(d, f)  +  bias(f) )  +  Σ_r ( Σ_j x(b, s, j) · A(b, r, j) ) · B(b, r, f).

  Everything is read on the extended reals. Only + and · occur and nothing is regrouped across a product, so no entry is
  asked to be finite: the sums are plain finite sums, whose order is immaterial because + is commutative and associative
  there.

  `entry` is that number; `layer` the whole array. `tileEntry` is the same formula over one tile: 1024 consecutive rows of
  one sample together with that sample's two factors, as a kernel that walks the (sample, row-tile) grid sees them.
  `tileEntry_eq_layer` says a tile's entry is the layer's entry at the array index the tile entry sits at, once each tile
  operand is known to be the corresponding part of its array.

  `product_entry` reads the matrix unit's product of an r × k by a k × n matrix, accumulated into a zero block, at (a, b):
  the sum over the contracted coordinate c of the entries' products.
-/
import Idealize.ShloMosaic.PureOps.Ideal.Laws
import Idealize.ShloMosaic.Lib.ValueIdx
import Idealize.ShloMosaic.Lib.Pipeline.Value
import Idealize.ShloMosaic.Lib.StackMember

noncomputable section

namespace LoraLayer

open Idealize.ShloMosaic Idealize.ShloMosaic.ValueIdx

/-- Entry (b, s, f) of the layer's output: the dense term plus the bias, then the rank-4 correction of sample b. -/
def entry (x : (⟨3, ![4, 4096, 1024]⟩ : Shape).Idx → EReal) (W : (⟨2, ![1024, 1024]⟩ : Shape).Idx → EReal)
    (bias : (⟨1, ![1024]⟩ : Shape).Idx → EReal) (A B : (⟨3, ![4, 4, 1024]⟩ : Shape).Idx → EReal)
    (b : Fin 4) (s : Fin 4096) (f : Fin 1024) : EReal :=
  ((∑ d : Fin 1024, x (ix3 b s d) * W (ix2 d f)) + bias (ix1 f))
    + ∑ r : Fin 4, (∑ j : Fin 1024, x (ix3 b s j) * A (ix3 b r j)) * B (ix3 b r f)

/-- The layer's output array. -/
def layer (x : (⟨3, ![4, 4096, 1024]⟩ : Shape).Idx → EReal) (W : (⟨2, ![1024, 1024]⟩ : Shape).Idx → EReal)
    (bias : (⟨1, ![1024]⟩ : Shape).Idx → EReal) (A B : (⟨3, ![4, 4, 1024]⟩ : Shape).Idx → EReal) :
    (⟨3, ![4, 4096, 1024]⟩ : Shape).Idx → EReal :=
  fun i => entry x W bias A B (i 0) (i 1) (i 2)

/-- Entry (p, q) of one tile's output: 1024 rows `xt` of one sample, the whole weight matrix and bias, and that sample's
    factors `At`, `Bt` (each tile operand carries a leading axis of extent one). -/
def tileEntry (xt : (⟨3, ![1, 1024, 1024]⟩ : Shape).Idx → EReal) (W : (⟨2, ![1024, 1024]⟩ : Shape).Idx → EReal)
    (bias : (⟨1, ![1024]⟩ : Shape).Idx → EReal) (At Bt : (⟨3, ![1, 4, 1024]⟩ : Shape).Idx → EReal)
    (p q : Fin 1024) : EReal :=
  ((∑ d : Fin 1024, xt (ix3 (0 : Fin 1) p d) * W (ix2 d q)) + bias (ix1 q))
    + ∑ r : Fin 4, (∑ j : Fin 1024, xt (ix3 (0 : Fin 1) p j) * At (ix3 (0 : Fin 1) r j)) * Bt (ix3 (0 : Fin 1) r q)

/-- A tile's entry (p, q) is the layer's entry at the array index `i` it sits at: row p of the tile is row (i 1) of sample
    (i 0), column q is column (i 2), and the tile's factors are sample (i 0)'s. -/
theorem tileEntry_eq_layer (xt : (⟨3, ![1, 1024, 1024]⟩ : Shape).Idx → EReal) (Wt : (⟨2, ![1024, 1024]⟩ : Shape).Idx → EReal)
    (biast : (⟨1, ![1024]⟩ : Shape).Idx → EReal) (At Bt : (⟨3, ![1, 4, 1024]⟩ : Shape).Idx → EReal)
    (x : (⟨3, ![4, 4096, 1024]⟩ : Shape).Idx → EReal) (W : (⟨2, ![1024, 1024]⟩ : Shape).Idx → EReal)
    (bias : (⟨1, ![1024]⟩ : Shape).Idx → EReal) (A B : (⟨3, ![4, 4, 1024]⟩ : Shape).Idx → EReal)
    (i : (⟨3, ![4, 4096, 1024]⟩ : Shape).Idx) (p q : Fin 1024)
    (hx : ∀ d : Fin 1024, xt (ix3 (0 : Fin 1) p d) = x (ix3 (i 0) (i 1) d))
    (hW : ∀ d : Fin 1024, Wt (ix2 d q) = W (ix2 d (i 2)))
    (hb : biast (ix1 q) = bias (ix1 (i 2)))
    (hA : ∀ (r : Fin 4) (j : Fin 1024), At (ix3 (0 : Fin 1) r j) = A (ix3 (i 0) r j))
    (hB : ∀ r : Fin 4, Bt (ix3 (0 : Fin 1) r q) = B (ix3 (i 0) r (i 2))) :
    tileEntry xt Wt biast At Bt p q = layer x W bias A B i := by
  unfold tileEntry layer entry
  simp only [hx, hW, hb, hA, hB]

/-- The matrix unit's product of an r × k by a k × n matrix, accumulated into a zero block, read at (a, b): the sum over the
    contracted coordinate of the entries' products. The dimension numbers are any record equal to the plain one. -/
theorem product_entry {r k n : Nat} {φ₁ φ₂ : FTy} (d : DotDims ⟨2, ![r, k]⟩ ⟨2, ![k, n]⟩ ⟨2, ![r, n]⟩)
    (hd : d = DotDims.plain r k n) (prec : Option ContractPrecision)
    (L : FVec Ideal ⟨2, ![r, k]⟩ φ₁) (R : FVec Ideal ⟨2, ![k, n]⟩ φ₂) (a : Fin r) (b : Fin n) :
    matmul d prec L R (constant (F := Ideal) ⟨2, ![r, n]⟩ .f32 0x00000000#32) (ix2 a b)
      = ∑ c : Fin k, L (ix2 a c) * R (ix2 c b) := by
  subst hd
  rw [matmul_zero_eq_dotGeneral]
  exact StackMember.dotGeneral_plain_apply prec L R a b

end LoraLayer

end
-- ==== Proof.ReferenceLayer.lean ====
/-
  The reference computes the layer: its last stage, read at an index, is the layer's entry there.

  The reference forms x·W by one contraction over the feature axis of the whole batch, adds the bias laid along the last
  axis, forms the correction by two batched contractions (first over the 1024 input features against factor A, then over
  the rank against factor B) and adds the two. Read at an index (b, s, f) each contraction is a plain sum over its one
  contracted coordinate, so the result is literally the layer's formula; what is left to check is that the operand
  indices each stage computes are the coordinates the formula names.
-/
import proofs.«128053_j80092550136286_1_alg».proof.Proof.Gen.ReferenceIdeal.Read
import proofs.«128053_j80092550136286_1_alg».proof.Proof.LoraLayer

noncomputable section

namespace Cert.ReferenceIdeal.Layer

open Cert.ReferenceIdeal Cert.ReferenceIdeal.Read Idealize.ShloMosaic Idealize.ShloMosaic.ValueIdx

/-- Left operand of x·W at output index i and contracted coordinate d: x at (i 0, i 1, d). -/
theorem dense_left (i : S4x4096x1024.Idx) (d : Fin 1024) : lidx_main_v0 i d = ix3 (i 0) (i 1) d :=
  funext fun a => Fin.ext (by match a with | ⟨0, _⟩ => rfl | ⟨1, _⟩ => rfl | ⟨2, _⟩ => rfl)

/-- Right operand of x·W: W at (d, i 2). -/
theorem dense_right (i : S4x4096x1024.Idx) (d : Fin 1024) : ridx_main_v0 i d = ix2 d (i 2) :=
  funext fun a => Fin.ext (by match a with | ⟨0, _⟩ => rfl | ⟨1, _⟩ => rfl)

/-- The bias laid along the last axis is read at (i 2). -/
theorem bias_at (i : S4x4096x1024.Idx) : idx_main_v1 (idx_main_v2 i) = ix1 (i 2) :=
  funext fun a => Fin.ext (by match a with | ⟨0, _⟩ => rfl)

/-- Inside the correction, the first contraction's left operand: x at (i 0, i 1, j), whatever the rank coordinate r. -/
theorem down_left (i : S4x4096x1024.Idx) (r : Fin 4) (j : Fin 1024) :
    lidx_main_v12 (lidx_main_v13 i r) j = ix3 (i 0) (i 1) j :=
  funext fun a => Fin.ext (by match a with | ⟨0, _⟩ => rfl | ⟨1, _⟩ => rfl | ⟨2, _⟩ => rfl)

/-- and its right operand: factor A at (i 0, r, j). -/
theorem down_right (i : S4x4096x1024.Idx) (r : Fin 4) (j : Fin 1024) :
    ridx_main_v12 (lidx_main_v13 i r) j = ix3 (i 0) r j :=
  funext fun a => Fin.ext (by match a with | ⟨0, _⟩ => rfl | ⟨1, _⟩ => rfl | ⟨2, _⟩ => rfl)

/-- The second contraction's right operand: factor B at (i 0, r, i 2). -/
theorem up_right (i : S4x4096x1024.Idx) (r : Fin 4) : ridx_main_v13 i r = ix3 (i 0) r (i 2) :=
  funext fun a => Fin.ext (by match a with | ⟨0, _⟩ => rfl | ⟨1, _⟩ => rfl | ⟨2, _⟩ => rfl)

/-- The reference's result is the layer of its arguments, with the two factors the stages it computes them by. -/
theorem result_eq (x0 : (⟨S4x4096x1024, .f32⟩ : BufTy).Contents (Elt Ideal)) (x1 : (⟨S4x512, .f32⟩ : BufTy).Contents (Elt Ideal))
    (x2 : (⟨S1024x1024, .f32⟩ : BufTy).Contents (Elt Ideal)) (x3 : (⟨S1024, .f32⟩ : BufTy).Contents (Elt Ideal))
    (x4 x5 : (⟨S512x4096, .f32⟩ : BufTy).Contents (Elt Ideal)) :
    val_main_v14 (F := Ideal) x0 x1 x2 x3 x4 x5
      = LoraLayer.layer x0 x2 x3 (val_main_v9 (F := Ideal) x1 x4) (val_main_v11 (F := Ideal) x1 x5) := by
  funext i
  rw [val_main_v14_apply, val_main_v3_apply, val_main_v0_apply, val_main_v2_apply, val_main_v1_apply, val_main_v13_apply]
  simp only [val_main_v12_apply, dense_left, dense_right, bias_at, down_left, down_right, up_right, Ideal.addf_def]
  rfl

end Cert.ReferenceIdeal.Layer

end
-- ==== Proof.Tile.lean ====
/-
  What the kernel body stores at one grid point, entry by entry.

  At a grid point the body holds a tile of 1024 rows of one sample (with a leading axis of extent one), the whole weight
  matrix, the bias vector and that sample's two rank-4 factors (each again with a leading unit axis). It multiplies the
  rows by the weight matrix on the matrix unit (both narrowed to bf16 first, which on the extended reals changes nothing),
  adds the bias along every row, multiplies the rows by the transposed first factor, the result by the second factor, adds,
  and stores the sum with the leading unit axis restored. Each product accumulates into a zero block, so at an entry it
  is the plain sum over its contracted coordinate; the rest only moves entries. Hence entry (0, p, q) of the stored block
  is the layer's formula over the tile.
-/
import proofs.«128053_j80092550136286_1_alg».proof.Proof.Gen.KernelIdeal.Skeleton
import proofs.«128053_j80092550136286_1_alg».proof.Proof.LoraLayer
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx

/-- The row tile without its leading unit axis: entry (p, d) is entry (0, p, d). -/
theorem rows_at (v0 : Vec Ideal S1x1024x1024 .f32) (p d : Fin 1024) :
    shapeCast S1024x1024 v0 shapeCasts_S1x1024x1024_S1024x1024 (ix2 p d) = v0 (ix3 (0 : Fin 1) p d) :=
  shapeCast_apply v0 shapeCasts_S1x1024x1024_S1024x1024 (ix2 p d) (ix3 (0 : Fin 1) p d)
    (by rewrite [Shape.rowMajor_val_two, Shape.rowMajor_val_three]
        show (0 * 1024 + p.val) * 1024 + d.val = p.val * 1024 + d.val; omega)

/-- A factor without its leading unit axis: entry (r, j) is entry (0, r, j). -/
theorem factor_at (v : Vec Ideal S1x4x1024 .f32) (r : Fin 4) (j : Fin 1024) :
    shapeCast S4x1024 v shapeCasts_S1x4x1024_S4x1024 (ix2 r j) = v (ix3 (0 : Fin 1) r j) :=
  shapeCast_apply v shapeCasts_S1x4x1024_S4x1024 (ix2 r j) (ix3 (0 : Fin 1) r j)
    (by rewrite [Shape.rowMajor_val_two, Shape.rowMajor_val_three]
        show (0 * 4 + r.val) * 1024 + j.val = r.val * 1024 + j.val; omega)

/-- The transposed factor: entry (j, r) is the factor's entry (r, j). -/
theorem transposed_at (u : FVec Ideal S4x1024 .f32) (j : Fin 1024) (r : Fin 4) :
    transpose S1024x4 [1, 0] u transposes_S4x1024_p1_0_S1024x4 (ix2 j r) = u (ix2 r j) :=
  transpose_apply [1, 0] u transposes_S4x1024_p1_0_S1024x4 (ix2 j r) (ix2 r j)
    (fun b => match b with | ⟨0, _⟩ => rfl | ⟨1, _⟩ => rfl)

/-- The bias laid along every row: entry (p, q) is the bias's entry q. -/
theorem bias_rows_at (v6 : Vec Ideal S1024 .f32) (p q : Fin 1024) :
    broadcastTo S1024x1024 (shapeCast S1x1024 v6 shapeCasts_S1024_S1x1024) broadcasts_S1x1024_S1024x1024 (ix2 p q)
      = v6 (ix1 q) := by
  refine (broadcastTo_apply (shapeCast S1x1024 v6 shapeCasts_S1024_S1x1024) broadcasts_S1x1024_S1024x1024 (ix2 p q)
    (ix2 (0 : Fin 1) q) (fun a => match a with
      | ⟨0, _⟩ => by show 0 = if (1 : Nat) = 1 then 0 else _; rw [if_pos rfl]
      | ⟨1, _⟩ => by show q.val = if (1024 : Nat) = 1 then 0 else _; rw [if_neg (by decide)]; rfl)).trans ?_
  exact shapeCast_apply v6 shapeCasts_S1024_S1x1024 (ix2 (0 : Fin 1) q) (ix1 q)
    (by rewrite [Shape.rowMajor_val_two, Shape.rowMajor_val_one]
        show q.val = 0 * 1024 + q.val; omega)

/-- The stored block restores the leading unit axis: entry (0, p, q) is the sum's entry (p, q). -/
theorem stored_at (u : FVec Ideal S1024x1024 .f32) (p q : Fin 1024) :
    shapeCast S1x1024x1024 u shapeCasts_S1024x1024_S1x1024x1024 (ix3 (0 : Fin 1) p q) = u (ix2 p q) :=
  shapeCast_apply u shapeCasts_S1024x1024_S1x1024x1024 (ix3 (0 : Fin 1) p q) (ix2 p q)
    (by rewrite [Shape.rowMajor_val_two, Shape.rowMajor_val_three]
        show p.val * 1024 + q.val = (0 * 1024 + p.val) * 1024 + q.val; omega)

/-- The dense product at (p, q): the sum over the 1024 input features of row p of the tile times column q of W. -/
theorem dense_at (v0 : Vec Ideal S1x1024x1024 .f32) (v2 : Vec Ideal S1024x1024 .f32) (p q : Fin 1024) :
    matmul dot_S1024x1024_S1024x1024_S1024x1024_1_0_0_1_n_n none
        (truncf .bf16 (shapeCast S1024x1024 v0 shapeCasts_S1x1024x1024_S1024x1024) bitsLt_bf16_f32)
        (truncf .bf16 v2 bitsLt_bf16_f32) (constant (F := Ideal) S1024x1024 .f32 0x00000000#32) (ix2 p q)
      = ∑ d : Fin 1024, v0 (ix3 (0 : Fin 1) p d) * v2 (ix2 d q) := by
  refine (LoraLayer.product_entry dot_S1024x1024_S1024x1024_S1024x1024_1_0_0_1_n_n rfl none _ _ p q).trans ?_
  refine Finset.sum_congr rfl fun d _ => ?_
  rw [truncf_apply, truncf_apply, rows_at]

/-- The first product of the correction at (p, r): row p of the tile against row r of the first factor. -/
theorem down_at (v0 : Vec Ideal S1x1024x1024 .f32) (v10 : Vec Ideal S1x4x1024 .f32) (p : Fin 1024) (r : Fin 4) :
    matmul dot_S1024x1024_S1024x4_S1024x4_1_0_0_1_n_n none
        (shapeCast S1024x1024 v0 shapeCasts_S1x1024x1024_S1024x1024 : FVec Ideal S1024x1024 .f32)
        (transpose S1024x4 [1, 0] (shapeCast S4x1024 v10 shapeCasts_S1x4x1024_S4x1024 : FVec Ideal S4x1024 .f32)
          transposes_S4x1024_p1_0_S1024x4 : FVec Ideal S1024x4 .f32)
        (constant (F := Ideal) S1024x4 .f32 0x00000000#32) (ix2 p r)
      = ∑ j : Fin 1024, v0 (ix3 (0 : Fin 1) p j) * v10 (ix3 (0 : Fin 1) r j) := by
  refine (LoraLayer.product_entry dot_S1024x1024_S1024x4_S1024x4_1_0_0_1_n_n rfl none _ _ p r).trans ?_
  refine Finset.sum_congr rfl fun j _ => ?_
  rw [rows_at, transposed_at, factor_at]

/-- The second product of the correction at (p, q): row p of the first product against column q of the second factor. -/
theorem up_at (T : FVec Ideal S1024x4 .f32) (v12 : Vec Ideal S1x4x1024 .f32) (p q : Fin 1024) :
    matmul dot_S1024x4_S4x1024_S1024x1024_1_0_0_1_n_n none T
        (shapeCast S4x1024 v12 shapeCasts_S1x4x1024_S4x1024 : FVec Ideal S4x1024 .f32)
        (constant (F := Ideal) S1024x1024 .f32 0x00000000#32) (ix2 p q)
      = ∑ r : Fin 4, T (ix2 p r) * v12 (ix3 (0 : Fin 1) r q) := by
  refine (LoraLayer.product_entry dot_S1024x4_S4x1024_S1024x1024_1_0_0_1_n_n rfl none _ _ p q).trans ?_
  refine Finset.sum_congr rfl fun r _ => ?_
  rw [factor_at]

/-- Entry (0, p, q) of the block the body stores is the layer's formula over the tile. -/
theorem payload_entry (v0 : Vec Ideal S1x1024x1024 .f32) (v2 : Vec Ideal S1024x1024 .f32) (v6 : Vec Ideal S1024 .f32)
    (v10 v12 : Vec Ideal S1x4x1024 .f32) (p q : Fin 1024) :
    k0_pay1 v0 v2 v6 v10 v12 (ix3 (0 : Fin 1) p q) = LoraLayer.tileEntry v0 v2 v6 v10 v12 p q := by
  unfold k0_pay1 LoraLayer.tileEntry
  rw [stored_at, addf_apply, addf_apply, dense_at, bias_rows_at, up_at]
  refine congrArg (_ + ·) (Finset.sum_congr rfl fun r _ => ?_)
  rw [down_at]

end Cert.KernelIdeal.Tile

end
-- ==== Proof.KernelLayer.lean ====
/-
  The kernel's output array is the layer.

  The kernel walks a 4 × 4 grid: point (b, s) takes rows 1024·s … 1024·s + 1023 of sample b, the whole weight matrix and
  bias, and sample b's two rank-4 factors, and writes tile (b, s) of the output. The two factors are made before the walk,
  each as hyper_var · W_f reshaped to 4 × 4 × 1024 and scaled by 2⁻⁶ (`factor`).

  What point (b, s) writes is, entry by entry, the layer's formula over its tile; each tile operand is the corresponding
  part of its array, so the written block is block (b, s) of one whole array, `out`: the layer of the arrays as the walk
  finds them. The sixteen output tiles are disjoint and fill the array (row r of sample b lies in tile (b, r / 1024)), so
  after the walk the output array is `out`, and with the factors and arguments spelt out it is the layer of the kernel's
  arguments.
-/
import proofs.«128053_j80092550136286_1_alg».proof.Proof.Gen.KernelIdeal.Value
import proofs.«128053_j80092550136286_1_alg».proof.Proof.Tile
import Idealize.ShloMosaic.Lib.StableHlo.Run

noncomputable section

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the walk reads, and the tiles a point holds -/

/-- The batch x as the walk finds it. -/
abbrev xArr (c : Dev nD) : Vec Ideal S4x4096x1024 .f32 := V m c main_arg0
/-- The weight matrix W. -/
abbrev wArr (c : Dev nD) : Vec Ideal S1024x1024 .f32 := V m c main_arg2
/-- The bias. -/
abbrev biasArr (c : Dev nD) : Vec Ideal S1024 .f32 := V m c main_arg3
/-- The first factors A, one 4 × 1024 matrix per sample. -/
abbrev aArr (c : Dev nD) : Vec Ideal S4x4x1024 .f32 := V m c main_v5
/-- The second factors B. -/
abbrev bArr (c : Dev nD) : Vec Ideal S4x4x1024 .f32 := V m c main_v7

/-- The 1024 rows of one sample that point t holds. -/
abbrev xTile (c : Dev nD) (t : Fin cfg0.N) : Vec Ideal S1x1024x1024 .f32 := iblk m c 0 t
/-- The weight matrix as point t holds it (all of it). -/
abbrev wTile (c : Dev nD) (t : Fin cfg0.N) : Vec Ideal S1024x1024 .f32 := iblk m c 1 t
/-- The bias as point t holds it (all of it). -/
abbrev biasTile (c : Dev nD) (t : Fin cfg0.N) : Vec Ideal S1024 .f32 := iblk m c 2 t
/-- The first factor of point t's sample. -/
abbrev aTile (c : Dev nD) (t : Fin cfg0.N) : Vec Ideal S1x4x1024 .f32 := iblk m c 3 t
/-- The second factor of point t's sample. -/
abbrev bTile (c : Dev nD) (t : Fin cfg0.N) : Vec Ideal S1x4x1024 .f32 := iblk m c 4 t

/-- The layer of the arrays as the walk finds them. -/
def out (c : Dev nD) : Vec Ideal S4x4096x1024 .f32 :=
  LoraLayer.layer (xArr m c) (wArr m c) (biasArr m c) (aArr m c) (bArr m c)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## One point writes one tile of `out` -/

/-- Where each operand's tile sits, at every grid point: the row tile has the output tile's sample and row-tile numbers;
    the weight matrix and the bias are taken whole; each factor tile has the output tile's sample number; and the sample
    and row-tile numbers are below 4. -/
theorem tile_indices : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_1.index t (0 : Fin 2) = 0 ∧ win0_1.index t (1 : Fin 2) = 0
    ∧ win0_2.index t (0 : Fin 1) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) < 4 ∧ win0_5.index t (1 : Fin 3) < 4 :=
  (by decide +kernel : ∀ t : Fin grid0.N, _)

/-- What point t writes back is tile t of `out`: entry (0, p, q) of the stored block is the layer's formula over the
    point's tiles, and each tile entry is the array entry at the matching place (a tile's coordinate on an axis is its
    number times its extent plus the coordinate inside it). -/
theorem flushed_eq (c : Dev nD) (t : Fin cfg0.N) :
    (dats m 0 c).flushed 5 t = ((cfg0.win 5).blk t).view.read (Elt Ideal) (out m c) := by
  show (cfg0.win 5).cut (grid0.coords t) ((dats m 0 c).after 5 t) = _
  rw [after0_5]
  unfold out0_5
  rw [View.canon_unit_zero hz3]
  simp only [View.ld_unit_zero (S := S1x1024x1024) hz3, View.ld_unit_zero (S := S1024x1024) hz2,
    View.ld_unit_zero (S := S1024) hz1, View.ld_unit_zero (S := S1x4x1024) hz3]
  funext y
  obtain ⟨u, p, q, rfl⟩ : ∃ (u : Fin 1) (p q : Fin 1024), y = ix3 u p q := ⟨y 0, y 1, y 2, eq_ix3 y⟩
  obtain rfl : u = 0 := Subsingleton.elim _ _
  show k0_pay1 (xTile m c t) (wTile m c t) (biasTile m c t) (aTile m c t) (bTile m c t) (ix3 (0 : Fin 1) p q)
      = out m c (((cfg0.win 5).blk t).view.emb (ix3 (0 : Fin 1) p q))
  refine (Tile.payload_entry (xTile m c t) (wTile m c t) (biasTile m c t) (aTile m c t) (bTile m c t) p q).trans ?_
  obtain ⟨e00, e01, e02, e52, e10, e11, e20, e30, e31, e32, e40, e41, e42, b0, b1⟩ := tile_indices t
  refine LoraLayer.tileEntry_eq_layer (xTile m c t) (wTile m c t) (biasTile m c t) (aTile m c t) (bTile m c t)
    (xArr m c) (wArr m c) (biasArr m c) (aArr m c) (bArr m c) (((cfg0.win 5).blk t).view.emb (ix3 (0 : Fin 1) p q)) p q
    ?_ ?_ ?_ ?_ ?_
  · intro d
    show V m c main_arg0 (((cfg0.win 0).blk t).view.emb (ix3 (0 : Fin 1) p d)) = V m c main_arg0 _
    refine congrArg _ (funext fun a => Fin.ext ?_)
    match a with
    | ⟨0, _⟩ => show win0_0.index t (0 : Fin 3) * 1 + 1 * 0 = win0_5.index t (0 : Fin 3) * 1 + 1 * 0; omega
    | ⟨1, _⟩ => show win0_0.index t (1 : Fin 3) * 1024 + 1 * p.val = win0_5.index t (1 : Fin 3) * 1024 + 1 * p.val; omega
    | ⟨2, _⟩ => show win0_0.index t (2 : Fin 3) * 1024 + 1 * d.val = d.val; omega
  · intro d
    show V m c main_arg2 (((cfg0.win 1).blk t).view.emb (ix2 d q)) = V m c main_arg2 _
    refine congrArg _ (funext fun a => Fin.ext ?_)
    match a with
    | ⟨0, _⟩ => show win0_1.index t (0 : Fin 2) * 1024 + 1 * d.val = d.val; omega
    | ⟨1, _⟩ => show win0_1.index t (1 : Fin 2) * 1024 + 1 * q.val = win0_5.index t (2 : Fin 3) * 1024 + 1 * q.val; omega
  · show V m c main_arg3 (((cfg0.win 2).blk t).view.emb (ix1 q)) = V m c main_arg3 _
    refine congrArg _ (funext fun a => Fin.ext ?_)
    match a with
    | ⟨0, _⟩ => show win0_2.index t (0 : Fin 1) * 1024 + 1 * q.val = win0_5.index t (2 : Fin 3) * 1024 + 1 * q.val; omega
  · intro r j
    show V m c main_v5 (((cfg0.win 3).blk t).view.emb (ix3 (0 : Fin 1) r j)) = V m c main_v5 _
    refine congrArg _ (funext fun a => Fin.ext ?_)
    match a with
    | ⟨0, _⟩ => show win0_3.index t (0 : Fin 3) * 1 + 1 * 0 = win0_5.index t (0 : Fin 3) * 1 + 1 * 0; omega
    | ⟨1, _⟩ => show win0_3.index t (1 : Fin 3) * 4 + 1 * r.val = r.val; omega
    | ⟨2, _⟩ => show win0_3.index t (2 : Fin 3) * 1024 + 1 * j.val = j.val; omega
  · intro r
    show V m c main_v7 (((cfg0.win 4).blk t).view.emb (ix3 (0 : Fin 1) r q)) = V m c main_v7 _
    refine congrArg _ (funext fun a => Fin.ext ?_)
    match a with
    | ⟨0, _⟩ => show win0_4.index t (0 : Fin 3) * 1 + 1 * 0 = win0_5.index t (0 : Fin 3) * 1 + 1 * 0; omega
    | ⟨1, _⟩ => show win0_4.index t (1 : Fin 3) * 4 + 1 * r.val = r.val; omega
    | ⟨2, _⟩ => show win0_4.index t (2 : Fin 3) * 1024 + 1 * q.val = win0_5.index t (2 : Fin 3) * 1024 + 1 * q.val; omega

/-! ## The tiles fill the output array -/

/-- Every (sample, row-tile) pair is some point's output tile. -/
theorem out_blocks_onto : ∀ (q0 : Fin 4) (q1 : Fin 4), ∃ t : Fin cfg0.N, win0_5.index t = ![q0.val, q1.val, 0] :=
  (by decide +kernel : ∀ (q0 : Fin 4) (q1 : Fin 4), ∃ t : Fin grid0.N, win0_5.index t = ![q0.val, q1.val, 0])

/-- An index lies in point t's output tile iff each coordinate lies in the tile's range on its axis. -/
theorem mem_tile (t : Fin cfg0.N) (i : S4x4096x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v8).slice (win0_5.rect t)).set ↔ _
  rw [View.set_slice_whole, Rect.mem_set_unit]
  exact Iff.rfl

/-- Every index of the output array lies in a written tile: that of its sample and of row-tile (i 1) / 1024. -/
theorem covered (i : S4x4096x1024.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 1024 := (i 2).isLt
  obtain ⟨t, ht⟩ := out_blocks_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_tile]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

/-- After the walk the output array is `out`. -/
theorem final (c : Dev nD) : (dats m 0 c).arrAt 5 cfg0.N = out m c :=
  (dats m 0 c).arrAt_eq_of_cover 5 (out m c) (fun t _ => flushed_eq m c t) covered

/-! ## The factors and the arguments spelt out -/

/-- A per-sample factor: hyper_var · W_f (4 × 4096) reshaped to 4 × 4 × 1024 and scaled by the constant 2⁻⁶. -/
def factor (h : FVec Ideal S4x512 .f32) (Wf : FVec Ideal S512x4096 .f32) : FVec Ideal S4x4x1024 .f32 :=
  mulf (shapeCast S4x4x1024 (Host.dotGeneral dot_S4x512_S512x4096_S4x4096_1_0_0_1_n_n none h Wf) shapeCasts_S4x4096_S4x4x1024)
    (broadcastInDim S4x4x1024 ![] bcast_S_S4x4x1024 (constant (F := Ideal) S_ .f32 0x3C800000#32))

/-- The first factors the walk finds are `factor` of hyper_var and W_a. -/
theorem aArr_eq (c : Dev nD) :
    aArr m c = factor (m ((c : Thread nD τ).loc main_arg1)) (m ((c : Thread nD τ).loc main_arg4)) := by
  unfold factor
  show V m c main_v5 = _
  dsimp only [Gen.V, Gen.hostOps0]; after_results; rfl

/-- The second factors are `factor` of hyper_var and W_b. -/
theorem bArr_eq (c : Dev nD) :
    bArr m c = factor (m ((c : Thread nD τ).loc main_arg1)) (m ((c : Thread nD τ).loc main_arg5)) := by
  unfold factor
  show V m c main_v7 = _
  dsimp only [Gen.V, Gen.hostOps0]; after_results; rfl

/-- `out` is the layer of the kernel's arguments: nothing before the walk writes x, W or the bias. -/
theorem out_eq (c : Dev nD) :
    out m c = LoraLayer.layer (m ((c : Thread nD τ).loc main_arg0)) (m ((c : Thread nD τ).loc main_arg2))
      (m ((c : Thread nD τ).loc main_arg3))
      (factor (m ((c : Thread nD τ).loc main_arg1)) (m ((c : Thread nD τ).loc main_arg4)))
      (factor (m ((c : Thread nD τ).loc main_arg1)) (m ((c : Thread nD τ).loc main_arg5))) := by
  unfold out
  rw [aArr_eq, bArr_eq]
  show LoraLayer.layer (V m c main_arg0) (V m c main_arg2) (V m c main_arg3) _ _ = _
  rw [V_main_arg0, V_main_arg2, V_main_arg3]

/-- Every weakly fair execution of the kernel ends with the output array at the layer of the arguments, the arguments
    unchanged. -/
theorem run : θ_run defs (onTc (τ := τ) (main (F := Ideal))) ⟨m, fun _ => 0, ρ⟩ fun r => ∀ c : Dev nD,
      r.2.mem ((c : Thread nD τ).loc main_v8)
        = LoraLayer.layer (m ((c : Thread nD τ).loc main_arg0)) (m ((c : Thread nD τ).loc main_arg2))
            (m ((c : Thread nD τ).loc main_arg3))
            (factor (m ((c : Thread nD τ).loc main_arg1)) (m ((c : Thread nD τ).loc main_arg4)))
            (factor (m ((c : Thread nD τ).loc main_arg1)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (out_eq m c)), (h c).2⟩)
    (Cert.KernelIdeal.Value.run_blocks m ρ)

end Cert.KernelIdeal.Layer

end
-- ==== Proof.lean ====
/-
  A dense layer with a per-sample low-rank correction: the kernel against its reference, over the extended reals.

  Both programs compute, for a batch x of 4 samples (4096 × 1024 each), a weight matrix W, a bias and, per sample b, two
  rank-4 factors A_b, B_b obtained from hyper_var by the same host operations (hyper_var · W_a and hyper_var · W_b,
  reshaped and scaled by 2⁻⁶),

      out(b, s, f) = ( Σ_d x(b, s, d) · W(d, f) + bias(f) ) + Σ_r ( Σ_j x(b, s, j) · A(b, r, j) ) · B(b, r, f).

  The kernel forms it tile by tile on a 4 × 4 grid, with the dense product's operands narrowed to bf16 (the identity on the
  extended reals) and every product accumulated into a zero block; the reference forms it by whole-array contractions.
  Term by term the two are the same sums with the same grouping, so no entry needs to be finite and the precondition is
  never opened. The kernel's output array is the layer of its arguments (KernelLayer), the reference's result is the
  layer of its arguments (ReferenceLayer), the arguments agree, and the two programs' factor stages are one function.

  The idealization rewrote nothing, so the kernel and its idealization are one text and `preserves` is trivial; the
  frames are the generated ones, and the reference's frame is its run with the result dropped.
-/
import proofs.«128053_j80092550136286_1_alg».proof.Defs
import proofs.«128053_j80092550136286_1_alg».proof.Proof.Gen.Kernel
import proofs.«128053_j80092550136286_1_alg».proof.Proof.Gen.Kernel.Skeleton
import proofs.«128053_j80092550136286_1_alg».proof.Proof.Gen.Kernel.Launch
import proofs.«128053_j80092550136286_1_alg».proof.Proof.Gen.Kernel.Points
import proofs.«128053_j80092550136286_1_alg».proof.Proof.Gen.Kernel.Frame
import proofs.«128053_j80092550136286_1_alg».proof.Proof.Gen.KernelIdeal
import proofs.«128053_j80092550136286_1_alg».proof.Proof.Gen.KernelIdeal.Skeleton
import proofs.«128053_j80092550136286_1_alg».proof.Proof.Gen.KernelIdeal.Launch
import proofs.«128053_j80092550136286_1_alg».proof.Proof.Gen.KernelIdeal.Points
import proofs.«128053_j80092550136286_1_alg».proof.Proof.Gen.KernelIdeal.Frame
import proofs.«128053_j80092550136286_1_alg».proof.Proof.Gen.ReferenceIdeal
import proofs.«128053_j80092550136286_1_alg».proof.Proof.Gen.Pre_finite_inputs
import proofs.«128053_j80092550136286_1_alg».proof.Proof.Gen.KernelIdeal.Value
import proofs.«128053_j80092550136286_1_alg».proof.Proof.Gen.ReferenceIdeal.Run
import proofs.«128053_j80092550136286_1_alg».proof.Proof.Gen.ReferenceIdeal.Read
import proofs.«128053_j80092550136286_1_alg».proof.Proof.ReferenceLayer
import proofs.«128053_j80092550136286_1_alg».proof.Proof.KernelLayer
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's first-factor stage is the kernel's `factor`: the same contraction, reshape and scaling by 2⁻⁶. -/
theorem factor_first (h : FVec Ideal Cert.KernelIdeal.S4x512 .f32) (Wf : FVec Ideal Cert.KernelIdeal.S512x4096 .f32) :
    Cert.ReferenceIdeal.Read.val_main_v9 (F := Ideal) h Wf = Cert.KernelIdeal.Layer.factor h Wf := rfl

/-- and so is its second-factor stage. -/
theorem factor_second (h : FVec Ideal Cert.KernelIdeal.S4x512 .f32) (Wf : FVec Ideal Cert.KernelIdeal.S512x4096 .f32) :
    Cert.ReferenceIdeal.Read.val_main_v11 (F := Ideal) h Wf = Cert.KernelIdeal.Layer.factor h Wf := rfl

/-- Over the extended reals, from memories agreeing on the arguments, both programs end with the layer of the arguments. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Layer.result_eq, factor_first, factor_second,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
